-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel

variable [Facts]

def fn {F : FTy → Type} [FloatOps F] (main_arg0 : FVec F S4096x3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  main_v3
-- ==== Kernel.lean ====
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S4096x4 : Shape := ⟨2, ![4096, 4]⟩
abbrev S4096x8 : Shape := ⟨2, ![4096, 8]⟩
abbrev S8x4096 : Shape := ⟨2, ![8, 4096]⟩
abbrev S4096x4096 : Shape := ⟨2, ![4096, 4096]⟩
abbrev S512x8 : Shape := ⟨2, ![512, 8]⟩
abbrev S8x512 : Shape := ⟨2, ![8, 512]⟩
abbrev S512x512 : Shape := ⟨2, ![512, 512]⟩
abbrev S512x1 : Shape := ⟨2, ![512, 1]⟩
abbrev S1x512 : Shape := ⟨2, ![1, 512]⟩
abbrev S8x1 : Shape := ⟨2, ![8, 1]⟩

abbrev nBuf : Space → Nat
  | .hbm => 10
  | .vmem => 6
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S_, .f32⟩
  | .hbm, ⟨6, _⟩ => ⟨S4096x4, .f32⟩
  | .hbm, ⟨7, _⟩ => ⟨S4096x8, .f32⟩
  | .hbm, ⟨8, _⟩ => ⟨S8x4096, .f32⟩
  | .hbm, ⟨9, _⟩ => ⟨S4096x4096, .f32⟩
  | .local _ .vmem, ⟨0, _⟩ => ⟨S512x8, .f32⟩
  | .local _ .vmem, ⟨1, _⟩ => ⟨S512x8, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let arg1 : BitVec 32 := BitVec.ofNat 32 (i 1).val
  let v30 : BitVec 1 := Scalar.cmpi .ne arg0 arg1
  let v31 : BitVec 32 := Scalar.extui v30
  let c0_i32 : BitVec 32 := 0#32
  let v32 : BitVec 1 := Scalar.cmpi .ne v31 c0_i32
  v32

def k0_cond2 (i : grid0.Coords) : BitVec 1 :=
  let arg0 : BitVec 32 := BitVec.ofNat 32 (i 0).val
  let arg1 : BitVec 32 := BitVec.ofNat 32 (i 1).val
  let v33 : BitVec 1 := Scalar.cmpi .eq arg0 arg1
  let v34 : BitVec 32 := Scalar.extui v33
  let c0_i32_8 : BitVec 32 := 0#32
  let v35 : BitVec 1 := Scalar.cmpi .ne v34 c0_i32_8
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4096x3_S4096_d1 : S4096x3.ReducesTo [1] S4096
  h_S_ : 0 < S_.numel
  bcast_S4096_S4096x1_0 : S4096.BroadcastsInDim S4096x1 (![0] : Fin 1 → Fin S4096x1.rank)
  bcast_S_S4096x4 : S_.BroadcastsInDim S4096x4 (![] : Fin 0 → Fin S4096x4.rank)
  concatenates_S4096x3_S4096x1_S4096x4_S4096x8_d1 : Shape.Concatenates [S4096x3, S4096x1, S4096x4] S4096x8 1
  transposes_S4096x8_S8x4096_1_0 : S4096x8.Transposes [1, 0] S8x4096
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S512x8_o0_3_S512x1 : S512x8.Slices ![0, 3] S512x1
  slices_S8x512_o3_0_S1x512 : S8x512.Slices ![3, 0] S1x512
  bitsLt_bf16_f32 : FTy.bits .bf16 < FTy.bits .f32
  iota_S8x1_d0_w32 : S8x1.Iotas .tc 32 [0]
  broadcasts_S8x1_S8x512 : S8x1.Broadcasts S8x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  iota_S512x512_d0_w32 : S512x512.Iotas .tc 32 [0]
  iota_S512x512_d1_w32 : S512x512.Iotas .tc 32 [1]
  dot_S512x8_S8x512_S512x512_1_0_0_1_n_n_wf : DotDims.WF S512x8 S8x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S4096x8.size a
  hwx0_0 : ∀ i : grid0.Coords, EltTy.bits .f32 = 32 ∨ (Rect.block (s := S4096x8) S512x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x4096.size a
  hwx0_1 : ∀ i : grid0.Coords, EltTy.bits .f32 = 32 ∨ (Rect.block (s := S8x4096) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)

variable [Facts₀]

def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf

abbrev win0_0 : Pipeline.Window sig grid0 :=
  Pipeline.Window.ofSpec (Memref.whole main_v4) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S3x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S4096x4096, .i1⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S_, .f32⟩
  | .hbm, ⟨36, _⟩ => ⟨S4096x4096, .f32⟩
  | .hbm, ⟨37, _⟩ => ⟨S4096x4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  reducesTo_S4096x3_S4096_d1 : S4096x3.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x3_S3x4096_1_0 : S4096x3.Transposes [1, 0] S3x4096
  bcast_S_S4096x4096 : S_.BroadcastsInDim S4096x4096 (![] : Fin 0 → Fin S4096x4096.rank)
  dot_S4096x3_S3x4096_S4096x4096_1_0_0_1_n_n_wf : DotDims.WF S4096x3 S3x4096 S4096x4096 [1] [0] [0] [1] [] []

variable [Facts₀]

def dot_S4096x3_S3x4096_S4096x4096_1_0_0_1_n_n : DotDims S4096x3 S3x4096 S4096x4096 where
  lhsContracting := [1]
  rhsContracting := [0]
  lhsNonContracting := [0]
  rhsNonContracting := [1]
  lhsBatch := []
  rhsBatch := []
  wf := dot_S4096x3_S3x4096_S4096x4096_1_0_0_1_n_n_wf

class Facts : Prop extends Facts₀ where

variable [Facts]
-- ==== Proof.KEntry.lean ====
/-
  The word-level kernel program up to its one region: what the eight host operations leave in the buffers
  when the region is entered, each window's block at a grid point, and the two branch conditions of the body.

  The grid is 8 × 8 tiles of 512 × 512.  The row window reads block `(i, 0)` of the 4096 × 8 array, so the
  pipeline fetches it only when the row tile changes; the column window reads block `(0, j)` of the 8 × 4096
  array at every point; the output window writes block `(i, j)` back at every point.  The body stores under
  `i ≠ j` and under `i = j`: exactly one of the two holds at each point.
-/
import proofs.«139832_g38766374814086_cont_8to1_b_1182_17_alg».proof.Proof.Gen.Kernel.Launch
import proofs.«139832_g38766374814086_cont_8to1_b_1182_17_alg».proof.Proof.Gen.Kernel.Skeleton
import proofs.«139832_g38766374814086_cont_8to1_b_1182_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument array is staged by no window, so a frame run leaves it as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body's branch conditions -/

/-- At every grid point exactly one of the two stores runs: the second condition is the first one's negation. -/
theorem cond2_iff_not_cond1 : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- The first condition holds exactly off the diagonal tiles. -/
theorem cond1_iff_ne : ∀ t : Fin cfg0.N, k0_cond1 (grid0.coords t) = 1#1 ↔ (grid0.coords t 0).val ≠ (grid0.coords t 1).val :=
  (by decide +kernel : ∀ t : Fin grid0.N, k0_cond1 (grid0.coords t) = 1#1 ↔ (grid0.coords t 0).val ≠ (grid0.coords t 1).val)

/-! ## The staging memrefs at a point -/

/-- One staging buffer of the output window, through which its contents are stated. -/
abbrev VO : View sig .tc .vmem S512x512 .f32 := (Memref.whole cc0_stg2_0 : Memref sig .tc .vmem S512x512 .f32).view
/-- Each window's current staging memref at point `t`, as the pipeline passes it, and its wholeness. -/
abbrev ms0 (t : Fin cfg0.N) : Memref sig .tc .vmem S512x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)

end Cert.Kernel.Region

end
-- ==== Proof.KRuns.lean ====
/-
  The kernel body run once in each of its two cases, on any whole staging buffers.

  Off the diagonal tiles the first branch stores the kept distances over the whole output block and the second
  branch is skipped; on a diagonal tile the first is skipped and the second stores the same values with the
  tile's diagonal zeroed.  In both cases the two input buffers are only read, and the output buffer, whatever it
  held, ends with one store over its whole extent.
-/
import proofs.«139832_g38766374814086_cont_8to1_b_1182_17_alg».proof.Proof.KEntry

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Off a diagonal tile: the body runs to its end holding the inputs as they were and the output buffer with the first branch's store written. -/
noncomputable def runOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1)
    (x0 : Vec F S512x8 .f32) (x1 : Vec F S8x512 .f32) :
    { L : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__nbr_kernel i arg2 harg2 arg3 harg3 arg4 harg4) K } := by
  refine ⟨?_, fun E K => ?run⟩
  case run =>
    simp only [cc0__nbr_kernel_eq_skeleton]; unfold cc0__nbr_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- On a diagonal tile: the body runs to its end holding the inputs as they were and the output buffer with the second branch's store written. -/
noncomputable def runDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1)
    (x0 : Vec F S512x8 .f32) (x1 : Vec F S8x512 .f32) :
    { L : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__nbr_kernel i arg2 harg2 arg3 harg3 arg4 harg4) K } := by
  refine ⟨?_, fun E K => ?run⟩
  case run =>
    simp only [cc0__nbr_kernel_eq_skeleton]; unfold cc0__nbr_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Region

end
-- ==== Proof.KFrame.lean ====
/-
  The word-level kernel program's frame: it runs to the end, faults nowhere, and leaves its argument unchanged.

  At each of the 64 grid points the body leaves, in the output window's staging buffer, one store over the whole
  512 × 512 block: the kept distances off the diagonal tiles, the same with the tile's diagonal zeroed on them.
  Both are pure functions of the point's row block and column block, so the proof data names them outright and
  nothing is carried from one point to the next.
-/
import proofs.«139832_g38766374814086_cont_8to1_b_1182_17_alg».proof.Proof.KRuns
import Idealize.ShloMosaic.Lib.Pipeline.Value

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## What each case leaves in the output buffer -/

/-- Off a diagonal tile the run's one store covers the block. -/
theorem coverOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1) (x0 : Vec F S512x8 .f32) (x1 : Vec F S8x512 .f32) (y : S512x512.Idx) :
    ∃ pc ∈ (runOff c i arg2 harg2 arg3 harg3 arg4 harg4 hc1 hc2 x0 x1).1, y ∈ pc.1.set :=
  View.cover_of_tiledL (runOff c i arg2 harg2 arg3 harg3 arg4 harg4 hc1 hc2 x0 x1).1 S512x512.size (by sl_kernel_rfl) y

/-- On a diagonal tile likewise. -/
theorem coverDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1) (x0 : Vec F S512x8 .f32) (x1 : Vec F S8x512 .f32) (y : S512x512.Idx) :
    ∃ pc ∈ (runDiag c i arg2 harg2 arg3 harg3 arg4 harg4 hc1 hc2 x0 x1).1, y ∈ pc.1.set :=
  View.cover_of_tiledL (runDiag c i arg2 harg2 arg3 harg3 arg4 harg4 hc1 hc2 x0 x1).1 S512x512.size (by sl_kernel_rfl) y

/-- Off a diagonal tile the buffer ends at the kept distances of the two blocks. -/
theorem leftOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1) (x0 : Vec F S512x8 .f32) (x1 : Vec F S8x512 .f32) :
    VO.read (Elt F) (VO.writes (Elt F) VO.junk (runOff c i arg2 harg2 arg3 harg3 arg4 harg4 hc1 hc2 x0 x1).1) = k0_pay1 x0 x1 := by
  rw [View.read_writes_eq_canon _ _ _ (coverOff c i arg2 harg2 arg3 harg3 arg4 harg4 hc1 hc2 x0 x1)]
  unfold runOff
  dsimp only
  sl_unfold_words
  rw [View.canon_unit_zero hz]
  simp only [View.readAt_eq_ld, harg2.read_unread, harg3.read_unread, View.ld_unit_zero (S := S512x8) hz, View.ld_unit_zero (S := S8x512) hz]

/-- On a diagonal tile it ends at the same with the tile's diagonal zeroed. -/
theorem leftDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1) (x0 : Vec F S512x8 .f32) (x1 : Vec F S8x512 .f32) :
    VO.read (Elt F) (VO.writes (Elt F) VO.junk (runDiag c i arg2 harg2 arg3 harg3 arg4 harg4 hc1 hc2 x0 x1).1) = k0_pay2 x0 x1 := by
  rw [View.read_writes_eq_canon _ _ _ (coverDiag c i arg2 harg2 arg3 harg3 arg4 harg4 hc1 hc2 x0 x1)]
  unfold runDiag
  dsimp only
  sl_unfold_words
  rw [View.canon_unit_zero hz]
  simp only [View.readAt_eq_ld, harg2.read_unread, harg3.read_unread, View.ld_unit_zero (S := S512x8) hz, View.ld_unit_zero (S := S8x512) hz]

/-! ## What the output buffer holds after each point -/

/-- The block the body leaves at point `t`: by the tile's case, a function of the point's two input blocks. -/
def outAt (c : Dev nD) (t : Fin cfg0.N) : Vec F S512x512 .f32 :=
  if k0_cond1 (grid0.coords t) = 1#1 then k0_pay1 (iblk m c 0 t) (iblk m c 1 t) else k0_pay2 (iblk m c 0 t) (iblk m c 1 t)

theorem outAt_off (c : Dev nD) (t : Fin cfg0.N) (h : k0_cond1 (grid0.coords t) = 1#1) :
    outAt m c t = k0_pay1 (iblk m c 0 t) (iblk m c 1 t) := if_pos h

theorem outAt_diag (c : Dev nD) (t : Fin cfg0.N) (h : ¬ k0_cond1 (grid0.coords t) = 1#1) :
    outAt m c t = k0_pay2 (iblk m c 0 t) (iblk m c 1 t) := if_neg h

/-! ## The pipeline's proof data -/

/-- The arrays as the region finds them; after the body each input's buffer at its block and the output's at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- No window is idle at any point: the inputs never are, and the output is stored into by one branch or the other. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

set_option maxHeartbeats 800000 in
/-- The body at any point: the inputs' buffers hold their blocks; the tile is off the diagonal or on it, and that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t]]
  rw [show (dats m 0 c).Φ t.succ = (dats m 0 c).Φ t.castSucc from rfl,
    show (dats m 0 c).owesAt () t.succ = (dats m 0 c).owesAt () t.castSucc from rfl,
    after0, after1, after2]
  by_cases h1 : k0_cond1 (grid0.coords t) = 1#1
  · have h2 : ¬ k0_cond2 (grid0.coords t) = 1#1 := fun h => ((cond2_iff_not_cond1 t).mp h) h1
    rw [outAt_off m c t h1, ← leftOff c (grid0.coords t) (ms0 t) (hs0 t) (ms1 t) (hs1 t) (ms2 t) (hs2 t) h1 h2 (iblk m c 0 t) (iblk m c 1 t)]
    iintro ⟨HΦ, Ho, ⟨%d0, H0⟩, ⟨%d1, H1⟩, ⟨%d2, H2⟩⟩
    iapply ((runOff c (grid0.coords t) _ _ _ _ _ _ h1 h2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverOff c _ _ _ _ _ _ _ h1 h2 _ _)
  · have h2 : k0_cond2 (grid0.coords t) = 1#1 := (cond2_iff_not_cond1 t).mpr h1
    rw [outAt_diag m c t h1, ← leftDiag c (grid0.coords t) (ms0 t) (hs0 t) (ms1 t) (hs1 t) (ms2 t) (hs2 t) h1 h2 (iblk m c 0 t) (iblk m c 1 t)]
    iintro ⟨HΦ, Ho, ⟨%d0, H0⟩, ⟨%d1, H1⟩, ⟨%d2, H2⟩⟩
    iapply ((runDiag c (grid0.coords t) _ _ _ _ _ _ h1 h2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverDiag c _ _ _ _ _ _ _ h1 h2 _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data's write-backs make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.Kernel.Region

end
-- ==== Proof.KIEntry.lean ====
/-
  The idealized kernel program up to its one region: what the eight host operations leave in the buffers
  when the region is entered, each window's block at a grid point, and the two branch conditions of the body.

  The grid is 8 × 8 tiles of 512 × 512.  The row window reads block `(i, 0)` of the 4096 × 8 array, so the
  pipeline fetches it only when the row tile changes; the column window reads block `(0, j)` of the 8 × 4096
  array at every point; the output window writes block `(i, j)` back at every point.  The body stores under
  `i ≠ j` and under `i = j`: exactly one of the two holds at each point.
-/
import proofs.«139832_g38766374814086_cont_8to1_b_1182_17_alg».proof.Proof.Gen.KernelIdeal.Launch
import proofs.«139832_g38766374814086_cont_8to1_b_1182_17_alg».proof.Proof.Gen.KernelIdeal.Skeleton
import proofs.«139832_g38766374814086_cont_8to1_b_1182_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the eight host operations. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The argument array is staged by no window, so a frame run leaves it as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body's branch conditions -/

/-- At every grid point exactly one of the two stores runs: the second condition is the first one's negation. -/
theorem cond2_iff_not_cond1 : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- The first condition holds exactly off the diagonal tiles. -/
theorem cond1_iff_ne : ∀ t : Fin cfg0.N, k0_cond1 (grid0.coords t) = 1#1 ↔ (grid0.coords t 0).val ≠ (grid0.coords t 1).val :=
  (by decide +kernel : ∀ t : Fin grid0.N, k0_cond1 (grid0.coords t) = 1#1 ↔ (grid0.coords t 0).val ≠ (grid0.coords t 1).val)

/-! ## The staging memrefs at a point -/

/-- One staging buffer of the output window, through which its contents are stated. -/
abbrev VO : View sig .tc .vmem S512x512 .f32 := (Memref.whole cc0_stg2_0 : Memref sig .tc .vmem S512x512 .f32).view
/-- Each window's current staging memref at point `t`, as the pipeline passes it, and its wholeness. -/
abbrev ms0 (t : Fin cfg0.N) : Memref sig .tc .vmem S512x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)

end Cert.KernelIdeal.Region

end
-- ==== Proof.KIRuns.lean ====
/-
  The kernel body run once in each of its two cases, on any whole staging buffers.

  Off the diagonal tiles the first branch stores the kept distances over the whole output block and the second
  branch is skipped; on a diagonal tile the first is skipped and the second stores the same values with the
  tile's diagonal zeroed.  In both cases the two input buffers are only read, and the output buffer, whatever it
  held, ends with one store over its whole extent.
-/
import proofs.«139832_g38766374814086_cont_8to1_b_1182_17_alg».proof.Proof.KIEntry

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- Off a diagonal tile: the body runs to its end holding the inputs as they were and the output buffer with the first branch's store written. -/
noncomputable def runOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1)
    (x0 : Vec F S512x8 .f32) (x1 : Vec F S8x512 .f32) :
    { L : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__nbr_kernel i arg2 harg2 arg3 harg3 arg4 harg4) K } := by
  refine ⟨?_, fun E K => ?run⟩
  case run =>
    simp only [cc0__nbr_kernel_eq_skeleton]; unfold cc0__nbr_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- On a diagonal tile: the body runs to its end holding the inputs as they were and the output buffer with the second branch's store written. -/
noncomputable def runDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1)
    (x0 : Vec F S512x8 .f32) (x1 : Vec F S8x512 .f32) :
    { L : List (View.Piece (Elt F) S512x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__nbr_kernel i arg2 harg2 arg3 harg3 arg4 harg4) K } := by
  refine ⟨?_, fun E K => ?run⟩
  case run =>
    simp only [cc0__nbr_kernel_eq_skeleton]; unfold cc0__nbr_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Region

end
-- ==== Proof.KIFrame.lean ====
/-
  The idealized kernel program's frame: it runs to the end, faults nowhere, and leaves its argument unchanged.

  At each of the 64 grid points the body leaves, in the output window's staging buffer, one store over the whole
  512 × 512 block: the kept distances off the diagonal tiles, the same with the tile's diagonal zeroed on them.
  Both are pure functions of the point's row block and column block, so the proof data names them outright and
  nothing is carried from one point to the next.
-/
import proofs.«139832_g38766374814086_cont_8to1_b_1182_17_alg».proof.Proof.KIRuns
import Idealize.ShloMosaic.Lib.Pipeline.Value

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-! ## What each case leaves in the output buffer -/

/-- Off a diagonal tile the run's one store covers the block. -/
theorem coverOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1) (x0 : Vec F S512x8 .f32) (x1 : Vec F S8x512 .f32) (y : S512x512.Idx) :
    ∃ pc ∈ (runOff c i arg2 harg2 arg3 harg3 arg4 harg4 hc1 hc2 x0 x1).1, y ∈ pc.1.set :=
  View.cover_of_tiledL (runOff c i arg2 harg2 arg3 harg3 arg4 harg4 hc1 hc2 x0 x1).1 S512x512.size (by sl_kernel_rfl) y

/-- On a diagonal tile likewise. -/
theorem coverDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1) (x0 : Vec F S512x8 .f32) (x1 : Vec F S8x512 .f32) (y : S512x512.Idx) :
    ∃ pc ∈ (runDiag c i arg2 harg2 arg3 harg3 arg4 harg4 hc1 hc2 x0 x1).1, y ∈ pc.1.set :=
  View.cover_of_tiledL (runDiag c i arg2 harg2 arg3 harg3 arg4 harg4 hc1 hc2 x0 x1).1 S512x512.size (by sl_kernel_rfl) y

/-- Off a diagonal tile the buffer ends at the kept distances of the two blocks. -/
theorem leftOff (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : k0_cond1 i = 1#1) (hc2 : ¬ k0_cond2 i = 1#1) (x0 : Vec F S512x8 .f32) (x1 : Vec F S8x512 .f32) :
    VO.read (Elt F) (VO.writes (Elt F) VO.junk (runOff c i arg2 harg2 arg3 harg3 arg4 harg4 hc1 hc2 x0 x1).1) = k0_pay1 x0 x1 := by
  rw [View.read_writes_eq_canon _ _ _ (coverOff c i arg2 harg2 arg3 harg3 arg4 harg4 hc1 hc2 x0 x1)]
  unfold runOff
  dsimp only
  sl_unfold_words
  rw [View.canon_unit_zero hz]
  simp only [View.readAt_eq_ld, harg2.read_unread, harg3.read_unread, View.ld_unit_zero (S := S512x8) hz, View.ld_unit_zero (S := S8x512) hz]

/-- On a diagonal tile it ends at the same with the tile's diagonal zeroed. -/
theorem leftDiag (c : Dev nD) (i : grid0.Coords) (arg2 : Memref sig .tc .vmem S512x8 .f32) (harg2 : arg2.IsWhole)
    (arg3 : Memref sig .tc .vmem S8x512 .f32) (harg3 : arg3.IsWhole) (arg4 : Memref sig .tc .vmem S512x512 .f32) (harg4 : arg4.IsWhole)
    (hc1 : ¬ k0_cond1 i = 1#1) (hc2 : k0_cond2 i = 1#1) (x0 : Vec F S512x8 .f32) (x1 : Vec F S8x512 .f32) :
    VO.read (Elt F) (VO.writes (Elt F) VO.junk (runDiag c i arg2 harg2 arg3 harg3 arg4 harg4 hc1 hc2 x0 x1).1) = k0_pay2 x0 x1 := by
  rw [View.read_writes_eq_canon _ _ _ (coverDiag c i arg2 harg2 arg3 harg3 arg4 harg4 hc1 hc2 x0 x1)]
  unfold runDiag
  dsimp only
  sl_unfold_words
  rw [View.canon_unit_zero hz]
  simp only [View.readAt_eq_ld, harg2.read_unread, harg3.read_unread, View.ld_unit_zero (S := S512x8) hz, View.ld_unit_zero (S := S8x512) hz]

/-! ## What the output buffer holds after each point -/

/-- The block the body leaves at point `t`: by the tile's case, a function of the point's two input blocks. -/
def outAt (c : Dev nD) (t : Fin cfg0.N) : Vec F S512x512 .f32 :=
  if k0_cond1 (grid0.coords t) = 1#1 then k0_pay1 (iblk m c 0 t) (iblk m c 1 t) else k0_pay2 (iblk m c 0 t) (iblk m c 1 t)

theorem outAt_off (c : Dev nD) (t : Fin cfg0.N) (h : k0_cond1 (grid0.coords t) = 1#1) :
    outAt m c t = k0_pay1 (iblk m c 0 t) (iblk m c 1 t) := if_pos h

theorem outAt_diag (c : Dev nD) (t : Fin cfg0.N) (h : ¬ k0_cond1 (grid0.coords t) = 1#1) :
    outAt m c t = k0_pay2 (iblk m c 0 t) (iblk m c 1 t) := if_neg h

/-! ## The pipeline's proof data -/

/-- The arrays as the region finds them; after the body each input's buffer at its block and the output's at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- No window is idle at any point: the inputs never are, and the output is stored into by one branch or the other. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

set_option maxHeartbeats 800000 in
/-- The body at any point: the inputs' buffers hold their blocks; the tile is off the diagonal or on it, and that
    case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).leavesExact 0 t = owns (c : Thread nD τ) (ms0 t) fullShare ((dats m 0 c).after 0 t) from by
      unfold Dat.leavesExact; rw [live0 t],
    show (dats m 0 c).leavesExact 1 t = owns (c : Thread nD τ) (ms1 t) fullShare ((dats m 0 c).after 1 t) from by
      unfold Dat.leavesExact; rw [live1 t],
    show (dats m 0 c).leavesExact 2 t = owns (c : Thread nD τ) (ms2 t) fullShare ((dats m 0 c).after 2 t) from by
      unfold Dat.leavesExact; rw [live2 t]]
  rw [show (dats m 0 c).Φ t.succ = (dats m 0 c).Φ t.castSucc from rfl,
    show (dats m 0 c).owesAt () t.succ = (dats m 0 c).owesAt () t.castSucc from rfl,
    after0, after1, after2]
  by_cases h1 : k0_cond1 (grid0.coords t) = 1#1
  · have h2 : ¬ k0_cond2 (grid0.coords t) = 1#1 := fun h => ((cond2_iff_not_cond1 t).mp h) h1
    rw [outAt_off m c t h1, ← leftOff c (grid0.coords t) (ms0 t) (hs0 t) (ms1 t) (hs1 t) (ms2 t) (hs2 t) h1 h2 (iblk m c 0 t) (iblk m c 1 t)]
    iintro ⟨HΦ, Ho, ⟨%d0, H0⟩, ⟨%d1, H1⟩, ⟨%d2, H2⟩⟩
    iapply ((runOff c (grid0.coords t) _ _ _ _ _ _ h1 h2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverOff c _ _ _ _ _ _ _ h1 h2 _ _)
  · have h2 : k0_cond2 (grid0.coords t) = 1#1 := (cond2_iff_not_cond1 t).mpr h1
    rw [outAt_diag m c t h1, ← leftDiag c (grid0.coords t) (ms0 t) (hs0 t) (ms1 t) (hs1 t) (ms2 t) (hs2 t) h1 h2 (iblk m c 0 t) (iblk m c 1 t)]
    iintro ⟨HΦ, Ho, ⟨%d0, H0⟩, ⟨%d1, H1⟩, ⟨%d2, H2⟩⟩
    iapply ((runDiag c (grid0.coords t) _ _ _ _ _ _ h1 h2 (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverDiag c _ _ _ _ _ _ _ h1 h2 _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data's write-backs make of it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (run_main m ρ)

end Cert.KernelIdeal.Region

end
-- ==== Proof.Spec.lean ====
/-
  The neighbour matrix, stated once over real coordinates.

  For positions `p i k` (4096 points in ℝ³) the entry at `(i, j)` is the distance `√d` when `i ≠ j`,
  `0 < d` and `d < cut`, and `0` otherwise, where `d = ‖p i‖² + ‖p j‖² − 2⟨p i, p j⟩` is the squared
  distance by the norm identity and `cut` is the cutoff's binary word read as an extended real (the same
  word on both sides, so its value is never opened).  One side clamps `d` at zero and takes `√` of the
  clamped value; the other keeps `d` only where `0 < d` and forms `d · d^(-1/2)`.  Both are this function.
-/
import Idealize.ShloMosaic.PureOps.Ideal
import Idealize.ShloMosaic.Lib.ValueIdx

noncomputable section

namespace Cert.Spec

open Idealize.ShloMosaic Idealize.ShloMosaic.ValueIdx

/-- The squared norm of point `i`. -/
def sqn (p : Fin 4096 → Fin 3 → ℝ) (i : Fin 4096) : ℝ := ∑ k : Fin 3, p i k * p i k

/-- The squared distance of points `i` and `j` by the norm identity. -/
def raw (p : Fin 4096 → Fin 3 → ℝ) (i j : Fin 4096) : ℝ :=
  (sqn p i + sqn p j) - 2 * ∑ k : Fin 3, p i k * p j k

/-- The cutoff: the word both programs compare against, as an extended real. -/
def cut : EReal := Ideal.ofBits .f32 0x3CB851EC#32

/-- A squared distance kept: its root when it is positive and under the cutoff, else zero. -/
def keep (x : ℝ) : EReal := if 0 < x ∧ ((x : ℝ) : EReal) < cut then ((Real.sqrt x : ℝ) : EReal) else 0

/-- The entry at `(i, j)`: zero on the diagonal, the kept squared distance off it. -/
def nbr (p : Fin 4096 → Fin 3 → ℝ) (i j : Fin 4096) : EReal := if i = j then 0 else keep (raw p i j)

/-- The whole matrix, index by index. -/
def G (p : Fin 4096 → Fin 3 → ℝ) : (⟨2, ![4096, 4096]⟩ : Shape).Idx → EReal :=
  fun y => nbr p ⟨(y 0).val, idx2_lt0 y⟩ ⟨(y 1).val, idx2_lt1 y⟩

theorem G_ix2 (p : Fin 4096 → Fin 3 → ℝ) (i j : Fin 4096) : G p (ix2 i j) = nbr p i j := rfl

/-- A point's row of eight: its three coordinates, its squared norm, four zeros. -/
def ext (p : Fin 4096 → Fin 3 → ℝ) (i : Fin 4096) (k : Fin 8) : ℝ :=
  if h : k.val < 3 then p i ⟨k.val, h⟩ else if k.val = 3 then sqn p i else 0

/-- The column scale: `-2` on the three coordinates, `0` on the rest. -/
def scale (k : Fin 8) : ℝ := if k.val < 3 then -2 else 0

/-- The squared distance from the rows of eight: the norms from column 3, the cross term from the scaled
    product, whose columns past the third contribute nothing. -/
theorem raw_eq_ext (p : Fin 4096 → Fin 3 → ℝ) (i j : Fin 4096) :
    (ext p i 3 + ext p j 3) + ∑ k : Fin 8, ext p i k * (ext p j k * scale k) = raw p i j := by
  simp only [Fin.sum_univ_eight, Fin.sum_univ_three, ext, scale, raw, sqn]
  norm_num
  rw [show ∀ h : 2 < 3, (⟨2, h⟩ : Fin 3) = 2 from fun _ => rfl]
  ring

end Cert.Spec

end
-- ==== Proof.KIHost.lean ====
/-
  What the host operations before the region leave in the two arrays the kernel reads, at the ideal instance.

  The row array is 4096 rows of eight: a point's three coordinates, then its squared norm (the sum of the squares of
  the three, from zero), then four zeros.  The column array is its transpose.  For real coordinates each entry is
  the coerced real `Spec.ext p i k`.
-/
import proofs.«139832_g38766374814086_cont_8to1_b_1182_17_alg».proof.Proof.KIEntry
import proofs.«139832_g38766374814086_cont_8to1_b_1182_17_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Host

open Idealize.ShloMosaic Idealize.ShloMosaic.TcCoe Idealize.SL.Sem Idealize.ShloMosaic.ValueIdx
open Cert.KernelIdeal Cert.KernelIdeal.Gen Cert.KernelIdeal.Region

/-- The squared norms, as the host computes them: the row sums of the squares, from zero. -/
def sqv (P : FVec Ideal S4096x3 .f32) : FVec Ideal S4096 .f32 :=
  Host.reduceAdd (mulf P P) (constant (F := Ideal) S_ .f32 0x00000000#32) reducesTo_S4096x3_S4096_d1 h_S_

/-- The squared norms as one column. -/
def normCol (P : FVec Ideal S4096x3 .f32) : FVec Ideal S4096x1 .f32 :=
  broadcastInDim S4096x1 ![0] bcast_S4096_S4096x1_0 (sqv P)

/-- Four columns of zeros. -/
def zeroCols : FVec Ideal S4096x4 .f32 :=
  broadcastInDim S4096x4 ![] bcast_S_S4096x4 (constant (F := Ideal) S_ .f32 0x00000000#32)

/-- The three pieces laid side by side: the coordinates, the squared norm as a column, four columns of zeros. -/
abbrev pieces (P : FVec Ideal S4096x3 .f32) : List ((s : Shape) × (s.Idx → EReal)) :=
  [⟨S4096x3, P⟩, ⟨S4096x1, normCol P⟩, ⟨S4096x4, zeroCols⟩]

/-- The row array: coordinates, squared norm, four zeros, side by side. -/
def rows8 (P : FVec Ideal S4096x3 .f32) : FVec Ideal S4096x8 .f32 :=
  concatenate S4096x8 1 (pieces P) concatenates_S4096x3_S4096x1_S4096x4_S4096x8_d1

variable (m : (ℓ : Loc nD τ sig) → Buf (Elt Ideal) ℓ)

/-- The region finds the row array at `rows8` of the argument. -/
theorem V_rows (c : Dev nD) :
    (V m c main_v4 : S4096x8.Idx → EReal) = rows8 (m ((c : Thread nD τ).loc main_arg0)) := by
  dsimp only [V, hostOps0]; after_results; rfl

/-- And the column array at its transpose. -/
theorem V_cols (c : Dev nD) :
    (V m c main_v5 : S8x4096.Idx → EReal)
      = transpose S8x4096 [1, 0] (rows8 (m ((c : Thread nD τ).loc main_arg0))) transposes_S4096x8_S8x4096_1_0 := by
  dsimp only [V, hostOps0]; after_results; rfl

/-- A squared norm is zero plus the three squares. -/
theorem sqv_apply (P : FVec Ideal S4096x3 .f32) (i : Fin 4096) :
    sqv P (ix1 i) = Ideal.ofBits .f32 0x00000000#32 + ∑ k : Fin 3, P (ix2 i k) * P (ix2 i k) := by
  unfold sqv
  generalize hy : mulf P P = y0
  simp only [Host.reduceAdd, Ideal.hostReduceAdd_def]
  rw [Ideal.hostReduceAdd_single reducesTo_S4096x3_S4096_d1 (by decide)]
  refine congrArg₂ (· + ·) rfl (Finset.sum_congr rfl fun k _ => ?_)
  subst hy
  have e : ∀ X : S4096x3.Idx, (∀ a, (X a).val = (ix2 i k a).val) → mulf P P X = P (ix2 i k) * P (ix2 i k) := fun X hX => by
    have hXe : X = ix2 i k := funext fun a => Fin.ext (hX a)
    rw [hXe]; rfl
  exact e _ (fun a => by match a with | ⟨0, _⟩ => rfl | ⟨1, _⟩ => rfl)

/-! ## The row array, entry by entry -/

/-- Columns 0, 1, 2 of a row are the point's coordinates. -/
theorem rows8_coord (P : FVec Ideal S4096x3 .f32) (i : Fin 4096) (k : Fin 3) :
    rows8 P (ix2 i (⟨k.val, by omega⟩ : Fin 8)) = P (ix2 i k) := by
  unfold rows8
  exact concatenate_apply_piece (t := S4096x8) 1 (pieces P) concatenates_S4096x3_S4096x1_S4096x4_S4096x8_d1
    (ix2 i (⟨k.val, by omega⟩ : Fin 8)) 0 (by show 0 < 3; omega) S4096x3 P rfl rfl 0 rfl (ix2 i k)
    (fun b hb => by match b with | ⟨0, _⟩ => rfl | ⟨1, _⟩ => exact absurd rfl hb)
    (Nat.zero_add _)

/-- Column 3 is the squared norm. -/
theorem rows8_norm (P : FVec Ideal S4096x3 .f32) (i : Fin 4096) :
    rows8 P (ix2 i (3 : Fin 8)) = sqv P (ix1 i) := by
  unfold rows8
  refine (concatenate_apply_piece (t := S4096x8) 1 (pieces P) concatenates_S4096x3_S4096x1_S4096x4_S4096x8_d1
    (ix2 i (3 : Fin 8)) 1 (by show 1 < 3; omega) S4096x1 (normCol P) rfl rfl 3 rfl (ix2 i (0 : Fin 1))
    (fun b hb => by match b with | ⟨0, _⟩ => rfl | ⟨1, _⟩ => exact absurd rfl hb)
    rfl).trans ?_
  unfold normCol
  generalize sqv P = y
  exact broadcastInDim_apply _ bcast_S4096_S4096x1_0 y (ix2 i (0 : Fin 1)) (ix1 i) (fun a => match a with
    | ⟨0, _⟩ => by show i.val = if (4096 : Nat) = 1 then 0 else i.val; rw [if_neg (by decide)])

/-- Columns 4 to 7 are zero. -/
theorem rows8_pad (P : FVec Ideal S4096x3 .f32) (i : Fin 4096) (k : Fin 4) :
    rows8 P (ix2 i (⟨k.val + 4, by omega⟩ : Fin 8)) = Ideal.ofBits .f32 0x00000000#32 := by
  unfold rows8
  refine (concatenate_apply_piece (t := S4096x8) 1 (pieces P) concatenates_S4096x3_S4096x1_S4096x4_S4096x8_d1
    (ix2 i (⟨k.val + 4, by omega⟩ : Fin 8)) 2 (by show 2 < 3; omega) S4096x4 zeroCols rfl rfl 4 rfl (ix2 i k)
    (fun b hb => by match b with | ⟨0, _⟩ => rfl | ⟨1, _⟩ => exact absurd rfl hb)
    (Nat.add_comm _ _)).trans ?_
  unfold zeroCols
  exact (broadcastInDim_apply ![] bcast_S_S4096x4 (constant (F := Ideal) S_ .f32 0x00000000#32) (ix2 i k) ix0
    (fun a => a.elim0)).trans rfl

/-- For real coordinates every entry of the row array is the coerced real of the point's row of eight. -/
theorem rows8_apply (P : FVec Ideal S4096x3 .f32) (p : Fin 4096 → Fin 3 → ℝ)
    (hP : ∀ i k, P (ix2 i k) = ((p i k : ℝ) : EReal)) (i : Fin 4096) (k : Fin 8) :
    rows8 P (ix2 i k) = ((Cert.Spec.ext p i k : ℝ) : EReal) := by
  unfold Cert.Spec.ext
  by_cases h3 : k.val < 3
  · rw [dif_pos h3]
    exact (rows8_coord P i ⟨k.val, h3⟩).trans (hP i ⟨k.val, h3⟩)
  · rw [dif_neg h3]
    by_cases h4 : k.val = 3
    · rw [if_pos h4]
      obtain rfl : k = 3 := Fin.ext h4
      rw [rows8_norm, sqv_apply, Ideal.ofBits_zero_f32, zero_add]
      unfold Cert.Spec.sqn
      simp only [hP, Fin.sum_univ_three, ← EReal.coe_mul, ← EReal.coe_add]
    · rw [if_neg h4]
      have hk : k = (⟨(⟨k.val - 4, by omega⟩ : Fin 4).val + 4, by omega⟩ : Fin 8) := Fin.ext (by show k.val = k.val - 4 + 4; omega)
      rw [hk, rows8_pad, Ideal.ofBits_zero_f32]
      rfl

/-- The column array is the row array transposed. -/
theorem cols8_apply (X : FVec Ideal S4096x8 .f32) (k : Fin 8) (j : Fin 4096) :
    transpose S8x4096 [1, 0] X transposes_S4096x8_S8x4096_1_0 (ix2 k j) = X (ix2 j k) :=
  transpose_apply [1, 0] X transposes_S4096x8_S8x4096_1_0 (ix2 k j) (ix2 j k)
    (fun a => by match a with | ⟨0, _⟩ => rfl | ⟨1, _⟩ => rfl)

end Cert.KernelIdeal.Host

end
-- ==== Proof.Payload.lean ====
/-
  What the kernel body stores, read at one entry of the 512 × 512 block.

  The row block holds, per point, its three coordinates, its squared norm in column 3 and four zeros; the
  column block is the same transposed.  The body adds column 3 of the rows, row 3 of the columns and the
  product of the rows with the columns scaled by -2 on the coordinate rows and 0 elsewhere: the squared
  distance by the norm identity.  It keeps that value times its reciprocal root where the value is positive
  and under the cutoff, which is the root there, and zero elsewhere.  On a diagonal tile the entries with
  equal row and column numbers are zeroed on top of that.
-/
import proofs.«139832_g38766374814086_cont_8to1_b_1182_17_alg».proof.Proof.Gen.KernelIdeal.Skeleton
import proofs.«139832_g38766374814086_cont_8to1_b_1182_17_alg».proof.Proof.Spec
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- A Boolean read as one bit is the set bit exactly when it is true. -/
theorem ofBool_one_iff (b : Bool) : BitVec.ofBool b = 1#1 ↔ b = true := by cases b <;> decide

/-- Two row or column numbers below 512 have the same 32-bit word exactly when they are equal. -/
theorem ofNat_inj512 (r q : Fin 512) : BitVec.ofNat 32 r.val = BitVec.ofNat 32 q.val ↔ r = q := by
  constructor
  · intro h
    have h' := congrArg BitVec.toNat h
    simp only [BitVec.toNat_ofNat] at h'
    have hr := r.isLt; have hq := q.isLt
    apply Fin.ext; omega
  · rintro rfl; rfl

/-- The diagonal mask of the tile: the row counter meets the column counter exactly on the diagonal. -/
theorem diag_mask (r q : Fin 512) :
    cmpi CmpIPredicate.eq (iota Kind.tc S512x512 32 [0] iota_S512x512_d0_w32)
        (iota Kind.tc S512x512 32 [1] iota_S512x512_d1_w32) (ix2 r q) = 1#1 ↔ r = q := by
  show IntOp.cmpi .eq (iota Kind.tc S512x512 32 [0] iota_S512x512_d0_w32 (ix2 r q))
      (iota Kind.tc S512x512 32 [1] iota_S512x512_d1_w32 (ix2 r q)) = 1#1 ↔ r = q
  rw [iota_single_apply, iota_single_apply]
  show BitVec.ofBool (BitVec.ofNat 32 r.val == BitVec.ofNat 32 q.val) = 1#1 ↔ r = q
  rw [ofBool_one_iff, beq_iff_eq, ofNat_inj512]

/-- Column 3 of the row block, spread along the columns: at (r, q) it is the row block at (r, 3). -/
theorem col3_apply (x0 : Vec Ideal S512x8 .f32) (r q : Fin 512) :
    broadcastTo S512x512 (extractStridedSlice S512x1 ![0, 3] x0 slices_S512x8_o0_3_S512x1)
        broadcasts_S512x1_S512x512 (ix2 r q) = x0 (ix2 r 3) := by
  refine (broadcastTo_apply _ _ (ix2 r q) (ix2 r 0) ?_).trans ?_
  · intro a
    match a with
    | ⟨0, _⟩ => rfl
    | ⟨1, _⟩ => rfl
  · refine extractStridedSlice_apply _ _ _ (ix2 r 0) (ix2 r 3) ?_
    intro a
    match a with
    | ⟨0, _⟩ => exact (Nat.zero_add _).symm
    | ⟨1, _⟩ => rfl

/-- Row 3 of the column block, spread along the rows: at (r, q) it is the column block at (3, q). -/
theorem row3_apply (x1 : Vec Ideal S8x512 .f32) (r q : Fin 512) :
    broadcastTo S512x512 (extractStridedSlice S1x512 ![3, 0] x1 slices_S8x512_o3_0_S1x512)
        broadcasts_S1x512_S512x512 (ix2 r q) = x1 (ix2 3 q) := by
  refine (broadcastTo_apply _ _ (ix2 r q) (ix2 0 q) ?_).trans ?_
  · intro a
    match a with
    | ⟨0, _⟩ => rfl
    | ⟨1, _⟩ => rfl
  · refine extractStridedSlice_apply _ _ _ (ix2 0 q) (ix2 3 q) ?_
    intro a
    match a with
    | ⟨0, _⟩ => rfl
    | ⟨1, _⟩ => exact (Nat.zero_add _).symm

/-- A column of eight spread along 512 columns reads its own row. -/
theorem spread8_apply (v : FVec Ideal S8x1 .f32) (k : Fin 8) (q : Fin 512) :
    broadcastTo S8x512 v broadcasts_S8x1_S8x512 (ix2 k q) = v (ix2 k 0) := by
  refine broadcastTo_apply _ _ (ix2 k q) (ix2 k 0) ?_
  intro a
  match a with
  | ⟨0, _⟩ => rfl
  | ⟨1, _⟩ => rfl

/-- The word of the float -2.0 (sign set, exponent 128, empty fraction) is the real number -2. -/
theorem neg_two_word : Ideal.ofBits .f32 0xC0000000#32 = (((-2 : ℝ)) : EReal) := by
  simp [Ideal.ofBits, Ideal.ieee, -EReal.coe_mul]; norm_num

/-- Among the eight row numbers, the signed comparison with 3 holds exactly for rows 0, 1, 2. -/
theorem lt3_mask (k : Fin 8) : IntOp.cmpi .slt (BitVec.ofNat 32 k.val) 3#32 = 1#1 ↔ k.val < 3 := by
  fin_cases k <;> decide

/-- The column of eight multipliers: -2 on the three coordinate rows and 0 on the other five. -/
theorem scale_col_apply (k : Fin 8) :
    select (cmpi CmpIPredicate.slt (iota Kind.tc S8x1 32 [0] iota_S8x1_d0_w32) (broadcast S8x1 3#32))
        (broadcast S8x1 (FloatOps.ofBits (F := Ideal) FTy.f32 0xC0000000#32))
        (broadcast S8x1 (FloatOps.ofBits (F := Ideal) FTy.f32 0#32)) (ix2 k 0)
      = ((Cert.Spec.scale k : ℝ) : EReal) := by
  show Scalar.select (IntOp.cmpi .slt (iota Kind.tc S8x1 32 [0] iota_S8x1_d0_w32 (ix2 k 0)) 3#32)
      (Ideal.ofBits .f32 0xC0000000#32) (Ideal.ofBits .f32 0x00000000#32) = _
  rw [iota_single_apply, neg_two_word, Ideal.ofBits_zero_f32]
  show Scalar.select (IntOp.cmpi .slt (BitVec.ofNat 32 k.val) 3#32) _ _ = _
  unfold Cert.Spec.scale
  by_cases h : k.val < 3
  · rw [(lt3_mask k).mpr h, select_one, if_pos h]
  · rw [eq_zero_of_ne_one (fun h1 => h ((lt3_mask k).mp h1)), select_zero, if_neg h]
    rfl

/-- Axis 0 of the left operand's index is the result's row. -/
theorem lhs_ax0 (i : S512x512.Idx) (c : dot_S512x8_S8x512_S512x512_1_0_0_1_n_n.contr.Idx) :
    (dot_S512x8_S8x512_S512x512_1_0_0_1_n_n.lhsIdx i c 0).val = (i 0).val := by
  unfold DotDims.lhsIdx
  rw [dif_neg (show ¬(0 : Fin S512x8.rank) ∈ dot_S512x8_S8x512_S512x512_1_0_0_1_n_n.lhsBatch by decide), dif_pos (show (0 : Fin S512x8.rank) ∈ dot_S512x8_S8x512_S512x512_1_0_0_1_n_n.lhsNonContracting by decide)]
  rfl

/-- Axis 1 of the left operand's index is the contracted coordinate. -/
theorem lhs_ax1 (i : S512x512.Idx) (c : dot_S512x8_S8x512_S512x512_1_0_0_1_n_n.contr.Idx) :
    (dot_S512x8_S8x512_S512x512_1_0_0_1_n_n.lhsIdx i c 1).val = (c ⟨0, by decide⟩).val :=
  dot_S512x8_S8x512_S512x512_1_0_0_1_n_n.lhsIdx_val_of_single rfl i c

/-- Axis 0 of the right operand's index is the contracted coordinate. -/
theorem rhs_ax0 (i : S512x512.Idx) (c : dot_S512x8_S8x512_S512x512_1_0_0_1_n_n.contr.Idx) :
    (dot_S512x8_S8x512_S512x512_1_0_0_1_n_n.rhsIdx i c 0).val = (c ⟨0, by decide⟩).val :=
  dot_S512x8_S8x512_S512x512_1_0_0_1_n_n.rhsIdx_val_of_single rfl i c

/-- Axis 1 of the right operand's index is the result's column. -/
theorem rhs_ax1 (i : S512x512.Idx) (c : dot_S512x8_S8x512_S512x512_1_0_0_1_n_n.contr.Idx) :
    (dot_S512x8_S8x512_S512x512_1_0_0_1_n_n.rhsIdx i c 1).val = (i 1).val := by
  unfold DotDims.rhsIdx
  rw [dif_neg (show ¬(1 : Fin S8x512.rank) ∈ dot_S512x8_S8x512_S512x512_1_0_0_1_n_n.rhsBatch by decide), dif_pos (show (1 : Fin S8x512.rank) ∈ dot_S512x8_S8x512_S512x512_1_0_0_1_n_n.rhsNonContracting by decide)]
  rfl

/-- The product of a 512 × 8 block with an 8 × 512 block into a zero accumulator: entry (r, q) is the
    sum over the eight shared coordinates of row r times column q. -/
theorem matmul_entry {φ₁ φ₂ : FTy} (lhs : FVec Ideal S512x8 φ₁) (rhs : FVec Ideal S8x512 φ₂) (r q : Fin 512) :
    matmul dot_S512x8_S8x512_S512x512_1_0_0_1_n_n none lhs rhs (constant S512x512 FTy.f32 0x00000000#32) (ix2 r q)
      = ∑ k : Fin 8, lhs (ix2 r k) * rhs (ix2 k q) := by
  refine (Ideal.matmul_constant_zero_apply dot_S512x8_S8x512_S512x512_1_0_0_1_n_n none lhs rhs (ix2 r q)).trans ?_
  rw [← Equiv.sum_comp (contrEquiv1 dot_S512x8_S8x512_S512x512_1_0_0_1_n_n 8 rfl rfl).symm]
  refine Finset.sum_congr rfl fun k _ => ?_
  have hk := contrEquiv1_symm_val dot_S512x8_S8x512_S512x512_1_0_0_1_n_n 8 rfl rfl k
  have el : dot_S512x8_S8x512_S512x512_1_0_0_1_n_n.lhsIdx (ix2 r q) ((contrEquiv1 dot_S512x8_S8x512_S512x512_1_0_0_1_n_n 8 rfl rfl).symm k) = ix2 r k :=
    funext fun a => Fin.ext (by
      match a with
      | ⟨0, _⟩ => exact lhs_ax0 _ _
      | ⟨1, _⟩ => exact (lhs_ax1 _ _).trans hk)
  have er : dot_S512x8_S8x512_S512x512_1_0_0_1_n_n.rhsIdx (ix2 r q) ((contrEquiv1 dot_S512x8_S8x512_S512x512_1_0_0_1_n_n 8 rfl rfl).symm k) = ix2 k q :=
    funext fun a => Fin.ext (by
      match a with
      | ⟨0, _⟩ => exact (rhs_ax0 _ _).trans hk
      | ⟨1, _⟩ => exact rhs_ax1 _ _)
  rw [el, er]

/-- A sum of eight coerced reals is the coerced sum. -/
theorem coe_sum8 (f : Fin 8 → ℝ) : ∑ k : Fin 8, ((f k : ℝ) : EReal) = ((∑ k : Fin 8, f k : ℝ) : EReal) := by
  simp only [Fin.sum_univ_eight, EReal.coe_add]

/-- The cross term: the row block times the scaled column block, at real operands, is the real sum
    of the eight products, each with its multiplier. -/
theorem cross_apply (x0 : Vec Ideal S512x8 .f32) (x1 : Vec Ideal S8x512 .f32)
    (a : Fin 512 → Fin 8 → ℝ) (b : Fin 8 → Fin 512 → ℝ)
    (ha : ∀ r k, x0 (ix2 r k) = ((a r k : ℝ) : EReal)) (hb : ∀ k q, x1 (ix2 k q) = ((b k q : ℝ) : EReal))
    (r q : Fin 512) :
    matmul dot_S512x8_S8x512_S512x512_1_0_0_1_n_n none (truncf FTy.bf16 x0 bitsLt_bf16_f32)
        (truncf FTy.bf16
          (mulf x1
            (broadcastTo S8x512
              (select (cmpi CmpIPredicate.slt (iota Kind.tc S8x1 32 [0] iota_S8x1_d0_w32) (broadcast S8x1 3#32))
                (broadcast S8x1 (FloatOps.ofBits (F := Ideal) FTy.f32 0xC0000000#32))
                (broadcast S8x1 (FloatOps.ofBits (F := Ideal) FTy.f32 0x00000000#32)))
              broadcasts_S8x1_S8x512))
          bitsLt_bf16_f32)
        (constant S512x512 FTy.f32 0x00000000#32) (ix2 r q)
      = ((∑ k : Fin 8, a r k * (b k q * Cert.Spec.scale k) : ℝ) : EReal) := by
  rw [matmul_entry, ← coe_sum8]
  refine Finset.sum_congr rfl fun k _ => ?_
  rw [truncf_apply, truncf_apply, mulf_apply, spread8_apply, scale_col_apply, ha, hb, ← EReal.coe_mul, ← EReal.coe_mul]

/-- Two one-bit words, each a Boolean, have the set bit as their conjunction exactly when both hold. -/
theorem and_mask_iff (p q : Bool) : IntOp.andi (BitVec.ofBool p) (BitVec.ofBool q) = 1#1 ↔ p = true ∧ q = true := by
  cases p <;> cases q <;> decide

/-- The mask of the kept entries: under the cutoff and above zero. -/
theorem keep_mask (d : ℝ) :
    IntOp.andi (Ideal.cmp .olt ((d : ℝ) : EReal) Cert.Spec.cut) (Ideal.cmp .ogt ((d : ℝ) : EReal) 0) = 1#1
      ↔ 0 < d ∧ ((d : ℝ) : EReal) < Cert.Spec.cut := by
  show IntOp.andi (BitVec.ofBool (decide (((d : ℝ) : EReal) < Cert.Spec.cut)))
      (BitVec.ofBool (decide ((0 : EReal) < ((d : ℝ) : EReal)))) = 1#1 ↔ _
  rw [and_mask_iff, decide_eq_true_iff, decide_eq_true_iff, EReal.coe_pos]
  exact and_comm

/-- A positive real times its reciprocal root is its root. -/
theorem mul_rsqrt_pos (d : ℝ) (h : 0 < d) : ((d : ℝ) : EReal) * Ideal.rsqrt ((d : ℝ) : EReal) = ((Real.sqrt d : ℝ) : EReal) := by
  rw [Ideal.rsqrt_coe, if_neg (not_lt.mpr h.le), if_neg h.ne', ← EReal.coe_mul]
  refine congrArg _ ?_
  rw [mul_inv_eq_iff_eq_mul₀ (Real.sqrt_pos.mpr h).ne']
  exact (Real.mul_self_sqrt h.le).symm

/-- The selection by the mask between the value times its reciprocal root and zero is the kept value. -/
theorem keep_select (d : ℝ) :
    Scalar.select (IntOp.andi (Ideal.cmp .olt ((d : ℝ) : EReal) Cert.Spec.cut) (Ideal.cmp .ogt ((d : ℝ) : EReal) 0))
        (((d : ℝ) : EReal) * Ideal.rsqrt ((d : ℝ) : EReal)) (0 : EReal) = Cert.Spec.keep d := by
  unfold Cert.Spec.keep
  by_cases h : 0 < d ∧ ((d : ℝ) : EReal) < Cert.Spec.cut
  · rw [if_pos h, (keep_mask d).mpr h, select_one, mul_rsqrt_pos d h.1]
  · rw [if_neg h, eq_zero_of_ne_one (fun h1 => h ((keep_mask d).mp h1)), select_zero]

/-- The squared distance before the cutoff: column 3 of the rows plus row 3 of the columns plus the cross term. -/
theorem sq_apply (x0 : Vec Ideal S512x8 .f32) (x1 : Vec Ideal S8x512 .f32)
    (a : Fin 512 → Fin 8 → ℝ) (b : Fin 8 → Fin 512 → ℝ)
    (ha : ∀ r k, x0 (ix2 r k) = ((a r k : ℝ) : EReal)) (hb : ∀ k q, x1 (ix2 k q) = ((b k q : ℝ) : EReal))
    (r q : Fin 512) :
    addf
        (addf
          (broadcastTo S512x512 (extractStridedSlice S512x1 ![0, 3] x0 slices_S512x8_o0_3_S512x1) broadcasts_S512x1_S512x512)
          (broadcastTo S512x512 (extractStridedSlice S1x512 ![3, 0] x1 slices_S8x512_o3_0_S1x512) broadcasts_S1x512_S512x512))
        (matmul dot_S512x8_S8x512_S512x512_1_0_0_1_n_n none (truncf FTy.bf16 x0 bitsLt_bf16_f32)
          (truncf FTy.bf16
            (mulf x1
              (broadcastTo S8x512
                (select (cmpi CmpIPredicate.slt (iota Kind.tc S8x1 32 [0] iota_S8x1_d0_w32) (broadcast S8x1 3#32))
                  (broadcast S8x1 (FloatOps.ofBits (F := Ideal) FTy.f32 0xC0000000#32))
                  (broadcast S8x1 (FloatOps.ofBits (F := Ideal) FTy.f32 0x00000000#32)))
                broadcasts_S8x1_S8x512))
            bitsLt_bf16_f32)
          (constant S512x512 FTy.f32 0x00000000#32)) (ix2 r q)
      = (((a r 3 + b 3 q) + ∑ k : Fin 8, a r k * (b k q * Cert.Spec.scale k) : ℝ) : EReal) := by
  rw [addf_apply, addf_apply, col3_apply, row3_apply, cross_apply x0 x1 a b ha hb, ha, hb, ← EReal.coe_add, ← EReal.coe_add]

/-- Off the diagonal tiles: from a row block `a` and a column block `b` of real rows of eight, entry `(r, q)` is
    the kept value of (column 3 of the row) + (row 3 of the column) + the product with the scaled column block. -/
theorem pay1_apply (x0 : Vec Ideal S512x8 .f32) (x1 : Vec Ideal S8x512 .f32)
    (a : Fin 512 → Fin 8 → ℝ) (b : Fin 8 → Fin 512 → ℝ)
    (ha : ∀ r k, x0 (ix2 r k) = ((a r k : ℝ) : EReal)) (hb : ∀ k q, x1 (ix2 k q) = ((b k q : ℝ) : EReal))
    (r q : Fin 512) :
    k0_pay1 (F := Ideal) x0 x1 (ix2 r q)
      = Cert.Spec.keep ((a r 3 + b 3 q) + ∑ k : Fin 8, a r k * (b k q * Cert.Spec.scale k)) := by
  unfold k0_pay1
  rw [shapeCast_self x0, shapeCast_self x1, select_apply, broadcast_apply, mulf_apply]
  show Scalar.select (IntOp.andi (Ideal.cmp .olt _ Cert.Spec.cut) (Ideal.cmp .ogt _ (Ideal.ofBits .f32 0x00000000#32)))
      (_ * Ideal.rsqrt _) (Ideal.ofBits .f32 0x00000000#32) = _
  rw [sq_apply x0 x1 a b ha hb, Ideal.ofBits_zero_f32]
  exact keep_select _

/-- On the diagonal tiles the same value with the tile's own diagonal zeroed. -/
theorem pay2_apply (x0 : Vec Ideal S512x8 .f32) (x1 : Vec Ideal S8x512 .f32) (r q : Fin 512) :
    k0_pay2 (F := Ideal) x0 x1 (ix2 r q) = if r = q then 0 else k0_pay1 (F := Ideal) x0 x1 (ix2 r q) := by
  unfold k0_pay2
  rw [select_apply, broadcast_apply]
  by_cases h : r = q
  · rw [if_pos h, (diag_mask r q).mpr h, select_one]
    exact Ideal.ofBits_zero_f32
  · rw [if_neg h, eq_zero_of_ne_one (fun h1 => h ((diag_mask r q).mp h1)), select_zero]

end Cert.KernelIdeal.Payload

end
-- ==== Proof.KIValue.lean ====
/-
  What the idealized kernel program leaves in its result array: the neighbour matrix of the real coordinates.

  Grid point `t` is the tile `(I, J)`.  Its row block is rows `512 I + r` of the row array, its column block
  columns `512 J + q` of the column array, and it writes back block `(I, J)` of the result: entry `(r, q)` of the
  block is entry `(512 I + r, 512 J + q)` of the matrix.  Off the diagonal tiles the two points differ and the body
  leaves the kept squared distance; on a diagonal tile the two points agree exactly when `r = q`, where the body
  leaves zero.  The 64 blocks tile the 4096 × 4096 array.
-/
import proofs.«139832_g38766374814086_cont_8to1_b_1182_17_alg».proof.Proof.KIFrame
import proofs.«139832_g38766374814086_cont_8to1_b_1182_17_alg».proof.Proof.KIHost
import proofs.«139832_g38766374814086_cont_8to1_b_1182_17_alg».proof.Proof.Payload

set_option maxRecDepth 16384

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region Cert.KernelIdeal.Host

variable (m : (ℓ : Loc nD τ sig) → Buf (Elt Ideal) ℓ) (ρ : Dev nD → PrngReg)
variable (p : Fin 4096 → Fin 3 → ℝ)

/-- The three index maps over the grid: the row window follows the tile's row, the column window its column, the
    output both; a tile coordinate is below 8. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = (grid0.coords t 1).val
    ∧ win0_2.index t (0 : Fin 2) = (grid0.coords t 0).val ∧ win0_2.index t (1 : Fin 2) = (grid0.coords t 1).val
    ∧ (grid0.coords t 0).val < 8 ∧ (grid0.coords t 1).val < 8 :=
  (by decide +kernel : ∀ t : Fin grid0.N, _)

/-- Every tile is some grid point's. -/
theorem idx_onto : ∀ (q0 q1 : Fin 8), ∃ t : Fin cfg0.N, win0_2.index t (0 : Fin 2) = q0.val ∧ win0_2.index t (1 : Fin 2) = q1.val :=
  (by decide +kernel : ∀ (q0 q1 : Fin 8), ∃ t : Fin grid0.N, win0_2.index t (0 : Fin 2) = q0.val ∧ win0_2.index t (1 : Fin 2) = q1.val)

/-- The row block and the column block at a point, at their literal types. -/
abbrev rowBlk (c : Dev nD) (t : Fin cfg0.N) : Vec Ideal S512x8 .f32 := iblk m c 0 t
abbrev colBlk (c : Dev nD) (t : Fin cfg0.N) : Vec Ideal S8x512 .f32 := iblk m c 1 t

/-- The global row of local row `r` in tile row `I`. -/
abbrev glob (I : Nat) (hI : I < 8) (r : Fin 512) : Fin 4096 := ⟨I * 512 + r.val, by have := r.isLt; omega⟩

/-- The row block's entries: the rows of eight of the tile's points. -/
theorem rowBlk_apply (hP : ∀ i k, m ((0 : Dev nD), Proc.devRef .tc main_arg0) (ix2 i k) = ((p i k : ℝ) : EReal))
    (t : Fin cfg0.N) (r : Fin 512) (k : Fin 8) :
    rowBlk m 0 t (ix2 r k) = ((Cert.Spec.ext p (glob (grid0.coords t 0).val (idx_facts t).2.2.2.2.2.2.1 r) k : ℝ) : EReal) := by
  obtain ⟨e0, e1, -, -, -, -, hI, -⟩ := idx_facts t
  show V m 0 main_v4 (((cfg0.win 0).blk t).view.emb (ix2 r k)) = _
  have he : ((cfg0.win 0).blk t).view.emb (ix2 r k) = ix2 (glob (grid0.coords t 0).val hI r) k := by
    funext a; apply Fin.ext
    match a with
    | ⟨0, _⟩ => show win0_0.index t (0 : Fin 2) * 512 + 1 * r.val = (grid0.coords t 0).val * 512 + r.val; omega
    | ⟨1, _⟩ => show win0_0.index t (1 : Fin 2) * 8 + 1 * k.val = k.val; omega
  rw [he]
  exact (congrFun (V_rows m 0) _).trans (rows8_apply _ p hP _ k)

/-- The column block's entries: the same rows of eight, transposed. -/
theorem colBlk_apply (hP : ∀ i k, m ((0 : Dev nD), Proc.devRef .tc main_arg0) (ix2 i k) = ((p i k : ℝ) : EReal))
    (t : Fin cfg0.N) (k : Fin 8) (q : Fin 512) :
    colBlk m 0 t (ix2 k q) = ((Cert.Spec.ext p (glob (grid0.coords t 1).val (idx_facts t).2.2.2.2.2.2.2 q) k : ℝ) : EReal) := by
  obtain ⟨-, -, e2, e3, -, -, -, hJ⟩ := idx_facts t
  show V m 0 main_v5 (((cfg0.win 1).blk t).view.emb (ix2 k q)) = _
  have he : ((cfg0.win 1).blk t).view.emb (ix2 k q) = ix2 k (glob (grid0.coords t 1).val hJ q) := by
    funext a; apply Fin.ext
    match a with
    | ⟨0, _⟩ => show win0_1.index t (0 : Fin 2) * 8 + 1 * k.val = k.val; omega
    | ⟨1, _⟩ => show win0_1.index t (1 : Fin 2) * 512 + 1 * q.val = (grid0.coords t 1).val * 512 + q.val; omega
  rw [he]
  exact ((congrFun (V_cols m 0) _).trans (cols8_apply _ k _)).trans (rows8_apply _ p hP _ k)

/-! ## What a point writes back -/

/-- Off a diagonal tile the two global indices differ; on one they agree exactly when the local ones do. -/
theorem glob_eq_iff (I J : Nat) (hI : I < 8) (hJ : J < 8) (r q : Fin 512) :
    glob I hI r = glob J hJ q ↔ I = J ∧ r = q := by
  have hr := r.isLt; have hq := q.isLt
  constructor
  · intro h
    have hv : I * 512 + r.val = J * 512 + q.val := congrArg Fin.val h
    exact ⟨by omega, Fin.ext (by omega)⟩
  · rintro ⟨rfl, rfl⟩; rfl

/-- The body's block at a point, entry by entry, is the matrix entry at the global indices. -/
theorem outAt_apply (hP : ∀ i k, m ((0 : Dev nD), Proc.devRef .tc main_arg0) (ix2 i k) = ((p i k : ℝ) : EReal))
    (t : Fin cfg0.N) (r q : Fin 512) :
    outAt m 0 t (ix2 r q)
      = Cert.Spec.nbr p (glob (grid0.coords t 0).val (idx_facts t).2.2.2.2.2.2.1 r) (glob (grid0.coords t 1).val (idx_facts t).2.2.2.2.2.2.2 q) := by
  obtain ⟨-, -, -, -, -, -, hI, hJ⟩ := idx_facts t
  have hpay : k0_pay1 (F := Ideal) (rowBlk m 0 t) (colBlk m 0 t) (ix2 r q)
      = Cert.Spec.keep (Cert.Spec.raw p (glob (grid0.coords t 0).val hI r) (glob (grid0.coords t 1).val hJ q)) := by
    rw [Cert.KernelIdeal.Payload.pay1_apply (rowBlk m 0 t) (colBlk m 0 t)
      (fun r k => Cert.Spec.ext p (glob (grid0.coords t 0).val hI r) k)
      (fun k q => Cert.Spec.ext p (glob (grid0.coords t 1).val hJ q) k)
      (fun r k => rowBlk_apply m p hP t r k) (fun k q => colBlk_apply m p hP t k q) r q]
    exact congrArg Cert.Spec.keep (Cert.Spec.raw_eq_ext p _ _)
  unfold Cert.Spec.nbr
  by_cases h1 : k0_cond1 (grid0.coords t) = 1#1
  · have hne : (grid0.coords t 0).val ≠ (grid0.coords t 1).val := (cond1_iff_ne t).mp h1
    rw [outAt_off m 0 t h1, if_neg (fun h => hne ((glob_eq_iff _ _ hI hJ r q).mp h).1)]
    exact hpay
  · have heq : (grid0.coords t 0).val = (grid0.coords t 1).val := not_not.mp (fun h => h1 ((cond1_iff_ne t).mpr h))
    rw [outAt_diag m 0 t h1]
    refine (Cert.KernelIdeal.Payload.pay2_apply (rowBlk m 0 t) (colBlk m 0 t) r q).trans ?_
    by_cases hrq : r = q
    · rw [if_pos hrq, if_pos ((glob_eq_iff _ _ hI hJ r q).mpr ⟨heq, hrq⟩)]
    · rw [if_neg hrq, if_neg (fun h => hrq ((glob_eq_iff _ _ hI hJ r q).mp h).2)]
      exact hpay

/-- What point `t` writes back is block `t` of the neighbour matrix. -/
theorem flushed_eq (hP : ∀ i k, m ((0 : Dev nD), Proc.devRef .tc main_arg0) (ix2 i k) = ((p i k : ℝ) : EReal)) (t : Fin cfg0.N) :
    (dats m 0 0).flushed 2 t = ((cfg0.win 2).blk t).view.read (Elt Ideal) (Cert.Spec.G p) := by
  obtain ⟨-, -, -, -, e4, e5, hI, hJ⟩ := idx_facts t
  show (cfg0.win 2).cut (grid0.coords t) ((dats m 0 0).after 2 t) = _
  rw [after2]
  funext j
  obtain ⟨r, q, rfl⟩ : ∃ (r : Fin 512) (q : Fin 512), j = ix2 r q := ⟨j 0, j 1, eq_ix2 j⟩
  show outAt m 0 t (ix2 r q) = Cert.Spec.G p (((cfg0.win 2).blk t).view.emb (ix2 r q))
  have he : ((cfg0.win 2).blk t).view.emb (ix2 r q) = ix2 (glob (grid0.coords t 0).val hI r) (glob (grid0.coords t 1).val hJ q) := by
    funext a; apply Fin.ext
    match a with
    | ⟨0, _⟩ => show win0_2.index t (0 : Fin 2) * 512 + 1 * r.val = (grid0.coords t 0).val * 512 + r.val; omega
    | ⟨1, _⟩ => show win0_2.index t (1 : Fin 2) * 512 + 1 * q.val = (grid0.coords t 1).val * 512 + q.val; omega
  rw [he, Cert.Spec.G_ix2]
  exact outAt_apply m p hP t r q

/-! ## The blocks cover the array -/

theorem mem_blk (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v6).slice (win0_2.rect t)).set ↔ _
  rw [View.set_slice_whole, Rect.mem_set_unit]
  exact Iff.rfl

/-- Every entry lies in the block of the tile its row and column fall in. -/
theorem cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512
              rw [q0]; show (i 0).val / 512 * 512 ≤ (i 0).val ∧ (i 0).val < (i 0).val / 512 * 512 + 512; omega
  | ⟨1, _⟩ => show win0_2.index t (1 : Fin 2) * 512 ≤ (i 1).val ∧ (i 1).val < win0_2.index t (1 : Fin 2) * 512 + 512
              rw [q1]; show (i 1).val / 512 * 512 ≤ (i 1).val ∧ (i 1).val < (i 1).val / 512 * 512 + 512; omega

/-- The result array after the run is the neighbour matrix. -/
theorem final (hP : ∀ i k, m ((0 : Dev nD), Proc.devRef .tc main_arg0) (ix2 i k) = ((p i k : ℝ) : EReal)) :
    (dats m 0 0).arrAt 2 cfg0.N = Cert.Spec.G p :=
  (dats m 0 0).arrAt_eq_of_cover 2 (Cert.Spec.G p) (fun t _ => flushed_eq m p hP t) cover

/-! ## The run, read -/

/-- Every execution ends with the result array at the neighbour matrix and the argument unchanged. -/
theorem run (hP : ∀ i k, m ((0 : Dev nD), Proc.devRef .tc main_arg0) (ix2 i k) = ((p i k : ℝ) : EReal)) :
    θ_run defs (onTc (τ := τ) (main (F := Ideal))) ⟨m, fun _ => 0, ρ⟩ fun r => ∀ c : Dev nD,
      r.2.mem ((c : Thread nD τ).loc main_v6) = Cert.Spec.G p
      ∧ r.2.mem ((c : Thread nD τ).loc main_arg0) = m ((c : Thread nD τ).loc main_arg0) :=
  (θ_run defs _ _).mono (fun r h c => by
      obtain rfl : c = 0 := Subsingleton.elim _ _
      exact ⟨((h 0).1 2).trans (final m p hP),
        ((h 0).2 main_arg0 (Pipeline.mem_restRefs_of main_arg0 (by decide) (by decide))).trans (V_main_arg0 m 0)⟩)
    (run_main m ρ)

end Cert.KernelIdeal.Value

end
-- ==== Proof.RefSide.lean ====
/-
  The reference program's result, read index by index, is the neighbour matrix of the real coordinates.
-/
import proofs.«139832_g38766374814086_cont_8to1_b_1182_17_alg».proof.Proof.Gen.ReferenceIdeal.Read
import proofs.«139832_g38766374814086_cont_8to1_b_1182_17_alg».proof.Proof.Spec

noncomputable section

namespace Cert.ReferenceIdeal.RefSide

open Idealize.ShloMosaic Idealize.ShloMosaic.ValueIdx Cert.ReferenceIdeal Cert.ReferenceIdeal.Read

/-- The binary word of two denotes the real number 2. -/
theorem word_two : Ideal.ofBits .f32 0x40000000#32 = ((2 : ℝ) : EReal) := by
  simp [Ideal.ofBits, Ideal.ieee, -EReal.coe_mul]; norm_num

/-- The binary word of one denotes the real number 1. -/
theorem word_one : Ideal.ofBits .f32 0x3F800000#32 = ((1 : ℝ) : EReal) := by
  simp [Ideal.ofBits, Ideal.ieee, -EReal.coe_mul]; norm_num

/-- A sum of three coerced reals is the coerced sum. -/
theorem coe_sum3 (f : Fin 3 → ℝ) : ∑ k : Fin 3, ((f k : ℝ) : EReal) = ((∑ k : Fin 3, f k : ℝ) : EReal) := by
  simp only [Fin.sum_univ_three, EReal.coe_add]

/-- The larger of a coerced real and zero is the coerced larger. -/
theorem max_coe_zero (d : ℝ) : max ((d : ℝ) : EReal) 0 = ((max d 0 : ℝ) : EReal) := by
  rcases le_total d 0 with h | h
  · rw [max_eq_right h, max_eq_right (by exact_mod_cast h), EReal.coe_zero]
  · rw [max_eq_left h, max_eq_left (by exact_mod_cast h)]

/-- Two row numbers below 4096 have the same 32-bit word exactly when they are equal. -/
theorem word_eq_iff (i j : Fin 4096) : BitVec.ofNat 32 i.val = BitVec.ofNat 32 j.val ↔ i = j := by
  constructor
  · intro h
    have h' := congrArg BitVec.toNat h
    rw [BitVec.toNat_ofNat, BitVec.toNat_ofNat] at h'
    apply Fin.ext
    have hi := i.isLt
    have hj := j.isLt
    omega
  · intro h; rw [h]

section
variable (P : FVec Ideal S4096x3 .f32) (p : Fin 4096 → Fin 3 → ℝ)
  (hP : ∀ i k, P (ix2 i k) = ((p i k : ℝ) : EReal))
include hP

/-- The row sums of squares are the squared norms. -/
theorem v1_eq (i : Fin 4096) : val_main_v1 (F := Ideal) P (ix1 i) = ((Cert.Spec.sqn p i : ℝ) : EReal) := by
  rw [val_main_v1_apply, val_main_cst_apply, Ideal.ofBits_def, Ideal.ofBits_zero_f32, zero_add]
  have h : ∀ k : Fin 3, val_main_v0 (F := Ideal) P (idx_main_v1 (ix1 i) k) = ((p i k * p i k : ℝ) : EReal) := by
    intro k
    rw [val_main_v0_apply, Ideal.mulf_def,
      show idx_main_v1 (ix1 i) k = ix2 i k from
        funext fun a => Fin.ext (by match a with | ⟨0, _⟩ => rfl | ⟨1, _⟩ => rfl),
      hP, ← EReal.coe_mul]
  simp only [h]
  rw [coe_sum3]
  rfl

/-- The two broadcast norms added: the sum of the squared norms of the row point and the column point. -/
theorem v6_eq (i j : Fin 4096) :
    val_main_v6 (F := Ideal) P (ix2 i j) = ((Cert.Spec.sqn p i + Cert.Spec.sqn p j : ℝ) : EReal) := by
  rw [val_main_v6_apply, Ideal.addf_def, val_main_v4_apply, val_main_v2_apply, val_main_v5_apply, val_main_v3_apply,
    show idx_main_v2 (idx_main_v4 (ix2 i j)) = ix1 i from
      funext fun a => Fin.ext (by match a with | ⟨0, _⟩ => rfl),
    show idx_main_v3 (idx_main_v5 (ix2 i j)) = ix1 j from
      funext fun a => Fin.ext (by match a with | ⟨0, _⟩ => rfl),
    v1_eq P p hP, v1_eq P p hP, ← EReal.coe_add]

/-- The product with the transpose: the inner product of the two points. -/
theorem v8_eq (i j : Fin 4096) :
    val_main_v8 (F := Ideal) P (ix2 i j) = ((∑ k : Fin 3, p i k * p j k : ℝ) : EReal) := by
  rw [val_main_v8_apply]
  have h : ∀ k : Fin 3, P (lidx_main_v8 (ix2 i j) k) * val_main_v7 (F := Ideal) P (ridx_main_v8 (ix2 i j) k)
      = ((p i k * p j k : ℝ) : EReal) := by
    intro k
    rw [val_main_v7_apply,
      show lidx_main_v8 (ix2 i j) k = ix2 i k from
        funext fun a => Fin.ext (by match a with | ⟨0, _⟩ => rfl | ⟨1, _⟩ => rfl),
      show idx_main_v7 (ridx_main_v8 (ix2 i j) k) = ix2 j k from
        funext fun a => Fin.ext (by match a with | ⟨0, _⟩ => rfl | ⟨1, _⟩ => rfl),
      hP, hP, ← EReal.coe_mul]
  simp only [h]
  rw [coe_sum3]

/-- The squared distance by the norm identity. -/
theorem v11_eq (i j : Fin 4096) :
    val_main_v11 (F := Ideal) P (ix2 i j) = ((Cert.Spec.raw p i j : ℝ) : EReal) := by
  rw [val_main_v11_apply, Ideal.subf_def, val_main_v10_apply, Ideal.mulf_def, val_main_v9_apply, val_main_cst_0_apply,
    Ideal.ofBits_def, word_two, v6_eq P p hP, v8_eq P p hP, ← EReal.coe_mul, ← EReal.coe_sub]
  rfl

/-- The squared distance clamped at zero. -/
theorem v13_eq (i j : Fin 4096) :
    val_main_v13 (F := Ideal) P (ix2 i j) = ((max (Cert.Spec.raw p i j) 0 : ℝ) : EReal) := by
  rw [val_main_v13_apply, Ideal.maximumf_def, val_main_v12_apply, val_main_cst_1_apply, Ideal.ofBits_def,
    Ideal.ofBits_zero_f32, v11_eq P p hP, max_coe_zero]

end

/-- The diagonal bit: the two index grids agree exactly on the diagonal. -/
theorem v18_eq (i j : Fin 4096) :
    val_main_v18 (F := Ideal) (ix2 i j) = if i = j then 1#1 else 0#1 := by
  rw [val_main_v18_apply, val_main_v17_apply, val_main_v14_apply, val_main_v15_apply, val_main_v16_apply,
    val_main_c_apply]
  show BitVec.ofBool (BitVec.ofNat 32 i.val + 0#32 == BitVec.ofNat 32 j.val) = _
  rw [BitVec.add_zero]
  by_cases h : i = j
  · rw [if_pos h, h]; simp
  · rw [if_neg h]
    have : ¬ BitVec.ofNat 32 i.val = BitVec.ofNat 32 j.val := fun e => h ((word_eq_iff i j).1 e)
    rw [show (BitVec.ofNat 32 i.val == BitVec.ofNat 32 j.val) = false from beq_eq_false_iff_ne.2 this]
    rfl

/-- A bit and the set bit is the bit. -/
theorem andi_one (x : BitVec 1) : IntOp.andi x 1#1 = x := by
  rcases BitVec.eq_zero_or_eq_one x with h | h <;> rw [h] <;> rfl

/-- A bit and the clear bit is clear. -/
theorem andi_zero (x : BitVec 1) : IntOp.andi x 0#1 = 0#1 := by
  rcases BitVec.eq_zero_or_eq_one x with h | h <;> rw [h] <;> rfl

/-- The scalar fact. With the squared distance d clamped to m = max d 0, the mask is (m under the cutoff) and
    (off the diagonal). On the diagonal the result is zero. Off it, under the cutoff the result is the root of m:
    the root of d when d is positive, and the root of zero, which is zero, otherwise; not under the cutoff the
    result is zero, and then a positive d, which is m, is not under the cutoff either. -/
theorem entry_eq (d : ℝ) (i j : Fin 4096) :
    Scalar.select
      (IntOp.andi (Ideal.cmp CmpFPredicate.olt (((max d 0 : ℝ)) : EReal) Cert.Spec.cut)
        (~~~if i = j then 1#1 else 0#1))
      (Ideal.sqrt
        (Scalar.select
          (IntOp.andi (Ideal.cmp CmpFPredicate.olt (((max d 0 : ℝ)) : EReal) Cert.Spec.cut)
            (~~~if i = j then 1#1 else 0#1))
          (((max d 0 : ℝ)) : EReal) ((1 : ℝ) : EReal)))
      (0 : EReal) =
    if i = j then 0 else Cert.Spec.keep d := by
  by_cases hij : i = j
  · rw [if_pos hij, if_pos hij, show ~~~(1#1 : BitVec 1) = 0#1 from rfl, andi_zero, select_zero]
  · rw [if_neg hij, if_neg hij, show ~~~(0#1 : BitVec 1) = 1#1 from rfl, andi_one]
    unfold Cert.Spec.keep
    by_cases hc : (((max d 0 : ℝ)) : EReal) < Cert.Spec.cut
    · rw [show Ideal.cmp CmpFPredicate.olt (((max d 0 : ℝ)) : EReal) Cert.Spec.cut = 1#1 from by
        show BitVec.ofBool (decide _) = 1#1
        rw [decide_eq_true hc]; rfl]
      rw [select_one, select_one, Ideal.sqrt_coe, if_neg (not_lt.2 (le_max_right d 0))]
      by_cases hd : 0 < d
      · rw [max_eq_left hd.le] at hc ⊢
        rw [if_pos ⟨hd, hc⟩]
      · rw [if_neg (fun h => hd h.1), max_eq_right (not_lt.1 hd), Real.sqrt_zero, EReal.coe_zero]
    · rw [show Ideal.cmp CmpFPredicate.olt (((max d 0 : ℝ)) : EReal) Cert.Spec.cut = 0#1 from by
        show BitVec.ofBool (decide _) = 0#1
        rw [decide_eq_false hc]; rfl]
      rw [select_zero]
      by_cases hd : 0 < d
      · rw [max_eq_left hd.le] at hc
        rw [if_neg (fun h => hc h.2)]
      · rw [if_neg (fun h => hd h.1)]

/-- For positions that are real numbers the reference's last stage is the neighbour matrix. -/
theorem result_eq (P : FVec Ideal S4096x3 .f32) (p : Fin 4096 → Fin 3 → ℝ)
    (hP : ∀ i k, P (ix2 i k) = ((p i k : ℝ) : EReal)) :
    Cert.ReferenceIdeal.Read.val_main_v25 (F := Ideal) P = Cert.Spec.G p := by
  funext y
  obtain ⟨i, j, rfl⟩ : ∃ (i : Fin 4096) (j : Fin 4096), y = ix2 i j := ⟨y 0, y 1, eq_ix2 y⟩
  rw [Cert.Spec.G_ix2, val_main_v25_apply, val_main_v24_apply, val_main_v23_apply, val_main_v22_apply,
    val_main_v21_apply, val_main_v20_apply, val_main_v19_apply, val_main_cst_2_apply,
    val_main_call1_v1_apply, val_main_call1_v0_apply, val_main_cst_4_apply,
    val_main_call0_v1_apply, val_main_call0_v0_apply, val_main_cst_3_apply,
    v13_eq P p hP, v18_eq]
  simp only [Ideal.ofBits_def, Ideal.ofBits_zero_f32, word_one, Ideal.hostUnary_sqrt_def, Ideal.cmpf_def]
  exact entry_eq (Cert.Spec.raw p i j) i j

end Cert.ReferenceIdeal.RefSide

end
-- ==== Proof.Finite.lean ====
/-
  Finite inputs are real numbers: the precondition says every entry's absolute value is below +∞.
-/
import proofs.«139832_g38766374814086_cont_8to1_b_1182_17_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- The binary word with all exponent bits set and no fraction bits denotes +∞. -/
theorem word_top : Ideal.ofBits .f32 0x7F800000#32 = ⊤ := by
  simp [Ideal.ofBits, Ideal.ieee]

/-- An extended real whose absolute value is strictly below +∞ is a real number. -/
theorem coe_of_abs_lt_top (x : EReal) (h : Ideal.cmp CmpFPredicate.olt (max x (-x)) ⊤ = 1#1) :
    x = ((x.toReal : ℝ) : EReal) := by
  induction x using EReal.rec with
  | bot => exact absurd h (by simp [Ideal.cmp])
  | top => exact absurd h (by simp [Ideal.cmp])
  | coe r => rfl

/-- Under the precondition every position is (the coercion of) a real number. -/
theorem real_of_pre (P : FVec Ideal Cert.Pre_finite_inputs.S4096x3 .f32)
    (h : Cert.Pre_finite_inputs.fn (F := Ideal) P = fun _ => 1#1) :
    ∃ p : Fin 4096 → Fin 3 → ℝ, ∀ i k, P (ix2 i k) = ((p i k : ℝ) : EReal) := by
  have h0 := congrFun h ValueIdx.ix0
  dsimp only [Cert.Pre_finite_inputs.fn] at h0
  haveI : Subsingleton Cert.Pre_finite_inputs.S_.Idx := ⟨fun a b => funext fun d => d.elim0⟩
  refine ⟨fun i k => (P (ix2 i k)).toReal, fun i k => ?_⟩
  have e := Host.reduce_andi_all _ _ _ _ _ h0 (ix2 i k)
  have e' : Ideal.cmp CmpFPredicate.olt (max (P (ix2 i k)) (-(P (ix2 i k)))) (Ideal.ofBits .f32 0x7F800000#32) = 1#1 := e
  rw [word_top] at e'
  exact coe_of_abs_lt_top _ e'

end Cert.Finite

end
-- ==== Proof.lean ====
/-
  The certificate of the cutoff neighbour matrix: from 4096 points in ℝ³ the dense 4096 × 4096 matrix holding, at
  `(i, j)`, the distance of points `i` and `j` when they are distinct and closer than the cutoff, and zero
  otherwise.

  Both programs form the squared distance by the norm identity `‖a‖² + ‖b‖² − 2⟨a, b⟩`.  The kernel lays each point
  out as a row of eight (its coordinates, its squared norm, four zeros), multiplies a row block by a column block
  whose coordinate rows are scaled by `-2` and whose other rows by `0`, adds the two norms, keeps an entry `d` only
  where `0 < d < cutoff` and there stores `d · d^(-1/2)`; on the diagonal tiles it also zeroes the tile's diagonal.
  The reference clamps `d` at zero, masks by `d < cutoff` off the diagonal, and takes the root.  Over the extended
  reals, for finite inputs, both are the one function `Spec.G`: `d · d^(-1/2) = √d` for `d > 0`, and where `d ≤ 0`
  one side stores zero and the other `√0`.  Finiteness is what makes `d` a real number on both sides.

  The three frames: each kernel program runs through its 64 grid points, the body storing one whole block under
  exactly one of its two branches; the reference is host operations only.  The ideal pass rewrote nothing, so
  `preserves` asks nothing.
-/
import proofs.«139832_g38766374814086_cont_8to1_b_1182_17_alg».proof.Defs
import proofs.«139832_g38766374814086_cont_8to1_b_1182_17_alg».proof.Proof.Gen.Kernel
import proofs.«139832_g38766374814086_cont_8to1_b_1182_17_alg».proof.Proof.Gen.KernelIdeal
import proofs.«139832_g38766374814086_cont_8to1_b_1182_17_alg».proof.Proof.Gen.ReferenceIdeal
import proofs.«139832_g38766374814086_cont_8to1_b_1182_17_alg».proof.Proof.Gen.Pre_finite_inputs
import proofs.«139832_g38766374814086_cont_8to1_b_1182_17_alg».proof.Proof.Gen.ReferenceIdeal.Run
import proofs.«139832_g38766374814086_cont_8to1_b_1182_17_alg».proof.Proof.Gen.ReferenceIdeal.Read
import proofs.«139832_g38766374814086_cont_8to1_b_1182_17_alg».proof.Proof.KFrame
import proofs.«139832_g38766374814086_cont_8to1_b_1182_17_alg».proof.Proof.KIFrame
import proofs.«139832_g38766374814086_cont_8to1_b_1182_17_alg».proof.Proof.KIValue
import proofs.«139832_g38766374814086_cont_8to1_b_1182_17_alg».proof.Proof.RefSide
import proofs.«139832_g38766374814086_cont_8to1_b_1182_17_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its argument as launched. -/
theorem frame_kernel : Cert.frame_Kernel := fun m ρ _ => Cert.Kernel.Region.frame m ρ

/-- So does the idealized kernel program. -/
theorem frame_kernelIdeal : Cert.frame_KernelIdeal := fun m ρ _ => Cert.KernelIdeal.Region.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on finite positions both idealized programs end with the neighbour matrix of the real
    coordinates: the kernel's blocks tile it, and the reference's last stage is it. -/
theorem algebraic : Cert.algebraic_KernelIdeal_ReferenceIdeal := by
  intro m ρ m' ρ' hpre hagree
  obtain ⟨p, hp⟩ := Cert.Finite.real_of_pre _ (hpre 0)
  refine ⟨fun _ => Cert.Spec.G p, Cert.KernelIdeal.Value.run m ρ p hp, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  exact ((Cert.ReferenceIdeal.Read.val_main_v25_eq _).trans
    (congrArg (Cert.ReferenceIdeal.Read.val_main_v25 (F := Ideal)) (hagree 0))).trans
    (Cert.ReferenceIdeal.RefSide.result_eq _ p hp)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
